-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x64 : Shape := ⟨3, ![8, 65536, 64]⟩
abbrev S64x5x4 : Shape := ⟨3, ![64, 5, 4]⟩
abbrev S_ : Shape := ⟨0, ![]⟩

class Facts : Prop where
  bcast_S_S8x65536x64 : S_.BroadcastsInDim S8x65536x64 (![] : Fin 0 → Fin S8x65536x64.rank)
  reducesTo_S8x65536x64_S_d0_1_2 : S8x65536x64.ReducesTo [0, 1, 2] S_
  h_S_ : 0 < S_.numel
  bcast_S_S64x5x4 : S_.BroadcastsInDim S64x5x4 (![] : Fin 0 → Fin S64x5x4.rank)
  reducesTo_S64x5x4_S_d0_1_2 : S64x5x4.ReducesTo [0, 1, 2] S_

variable [Facts]

def fn {F : FTy → Type} [FloatOps F] (main_arg0 : FVec F S8x65536x64 .f32) (main_arg1 : FVec F S64x5x4 .f32) : IVec S_ 1 :=
  let main_v0 : FVec F S8x65536x64 .f32 := Host.absf main_arg0
  let main_cst : FVec F S_ .f32 := constant S_ .f32 0x7F800000#32
  let main_v1 : FVec F S8x65536x64 .f32 := broadcastInDim S8x65536x64 ![] bcast_S_S8x65536x64 main_cst
  let main_v2 : IVec S8x65536x64 1 := cmpf .olt main_v0 main_v1
  let main_c : IVec S_ 1 := constantI S_ 1 1#1
  let main_v3 : IVec S_ 1 := (fun x v => Host.reduce IntOp.andi x v reducesTo_S8x65536x64_S_d0_1_2 h_S_) main_v2 main_c
  let main_v4 : FVec F S64x5x4 .f32 := Host.absf main_arg1
  let main_cst_0 : FVec F S_ .f32 := constant S_ .f32 0x7F800000#32
  let main_v5 : FVec F S64x5x4 .f32 := broadcastInDim S64x5x4 ![] bcast_S_S64x5x4 main_cst_0
  let main_v6 : IVec S64x5x4 1 := cmpf .olt main_v4 main_v5
  let main_c_1 : IVec S_ 1 := constantI S_ 1 1#1
  let main_v7 : IVec S_ 1 := (fun x v => Host.reduce IntOp.andi x v reducesTo_S64x5x4_S_d0_1_2 h_S_) main_v6 main_c_1
  let main_v8 : IVec S_ 1 := andi main_v3 main_v7
  main_v8
-- ==== Kernel.lean ====
abbrev S8x65536x64 : Shape := ⟨3, ![8, 65536, 64]⟩
abbrev S64x5x4 : Shape := ⟨3, ![64, 5, 4]⟩
abbrev S8x64x65536 : Shape := ⟨3, ![8, 64, 65536]⟩
abbrev S524288x64 : Shape := ⟨2, ![524288, 64]⟩
abbrev S4096x64 : Shape := ⟨2, ![4096, 64]⟩
abbrev S64x1x1 : Shape := ⟨3, ![64, 1, 1]⟩
abbrev S64 : Shape := ⟨1, ![64]⟩
abbrev S1x64 : Shape := ⟨2, ![1, 64]⟩

abbrev nBuf : Space → Nat
  | .hbm => 7
  | .vmem => 5
  | .smem => 0
  | _ => 0

abbrev bufTy : (tb : Table) → Fin (tcTables nBuf tb) → BufTy
  | .hbm, ⟨0, _⟩ => ⟨S8x65536x64, .f32⟩
  | .hbm, ⟨1, _⟩ => ⟨S64x5x4, .f32⟩
  | .hbm, ⟨2, _⟩ => ⟨S8x64x65536, .f32⟩
  | .hbm, ⟨3, _⟩ => ⟨S524288x64, .f32⟩
  | .hbm, ⟨4, _⟩ => ⟨S524288x64, .f32⟩
  | .hbm, ⟨5, _⟩ => ⟨S8x65536x64, .f32⟩
  | .hbm, ⟨6, _⟩ => ⟨S8x64x65536, .f32⟩
  | .local _ .vmem, ⟨0, _⟩ => ⟨S4096x64, .f32⟩
  | .local _ .vmem, ⟨1, _⟩ => ⟨S4096x64, .f32⟩
  | .local _ .vmem, ⟨2, _⟩ => ⟨S64x5x4, .f32⟩
  | .local _ .vmem, ⟨3, _⟩ => ⟨S4096x64, .f32⟩
  | .local _ .vmem, ⟨4, _⟩ => ⟨S4096x64, .f32⟩
  | _, _ => ⟨S8x65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x5x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8x65536x64_S8x64x65536_0_2_1 : S8x65536x64.Transposes [0, 2, 1] S8x64x65536
  shapeCasts_S8x64x65536_S524288x64 : S8x64x65536.ShapeCasts S524288x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x5x4_S64x5x4_0_0_0 : ∀ a, (![0, 0, 0] : Fin 3 → Nat) a + S64x5x4.size a ≤ S64x5x4.size a
  h_S64x5x4 : 0 < S64x5x4.numel
  slices_S64x5x4_o0_0_0_S64x1x1 : S64x5x4.Slices ![0, 0, 0] S64x1x1
  shapeCasts_S64x1x1_S64 : S64x1x1.ShapeCasts S64
  shapeCasts_S64_S1x64 : S64.ShapeCasts S1x64
  slices_S64x5x4_o0_0_1_S64x1x1 : S64x5x4.Slices ![0, 0, 1] S64x1x1
  slices_S64x5x4_o0_0_2_S64x1x1 : S64x5x4.Slices ![0, 0, 2] S64x1x1
  slices_S64x5x4_o0_0_3_S64x1x1 : S64x5x4.Slices ![0, 0, 3] S64x1x1
  broadcasts_S1x64_S4096x64 : S1x64.Broadcasts S4096x64
  slices_S64x5x4_o0_1_0_S64x1x1 : S64x5x4.Slices ![0, 1, 0] S64x1x1
  slices_S64x5x4_o0_1_1_S64x1x1 : S64x5x4.Slices ![0, 1, 1] S64x1x1
  slices_S64x5x4_o0_1_2_S64x1x1 : S64x5x4.Slices ![0, 1, 2] S64x1x1
  slices_S64x5x4_o0_1_3_S64x1x1 : S64x5x4.Slices ![0, 1, 3] S64x1x1
  slices_S64x5x4_o0_2_0_S64x1x1 : S64x5x4.Slices ![0, 2, 0] S64x1x1
  slices_S64x5x4_o0_2_1_S64x1x1 : S64x5x4.Slices ![0, 2, 1] S64x1x1
  slices_S64x5x4_o0_2_2_S64x1x1 : S64x5x4.Slices ![0, 2, 2] S64x1x1
  slices_S64x5x4_o0_2_3_S64x1x1 : S64x5x4.Slices ![0, 2, 3] S64x1x1
  slices_S64x5x4_o0_3_0_S64x1x1 : S64x5x4.Slices ![0, 3, 0] S64x1x1
  slices_S64x5x4_o0_3_1_S64x1x1 : S64x5x4.Slices ![0, 3, 1] S64x1x1
  slices_S64x5x4_o0_3_2_S64x1x1 : S64x5x4.Slices ![0, 3, 2] S64x1x1
  slices_S64x5x4_o0_3_3_S64x1x1 : S64x5x4.Slices ![0, 3, 3] S64x1x1
  slices_S64x5x4_o0_4_0_S64x1x1 : S64x5x4.Slices ![0, 4, 0] S64x1x1
  slices_S64x5x4_o0_4_1_S64x1x1 : S64x5x4.Slices ![0, 4, 1] S64x1x1
  slices_S64x5x4_o0_4_2_S64x1x1 : S64x5x4.Slices ![0, 4, 2] S64x1x1
  slices_S64x5x4_o0_4_3_S64x1x1 : S64x5x4.Slices ![0, 4, 3] S64x1x1
  shapeCasts_S524288x64_S8x65536x64 : S524288x64.ShapeCasts S8x65536x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x5x4.size a ≤ S64x5x4.size a
  hwx0_1 : ∀ i : grid0.Coords, EltTy.bits .f32 = 32 ∨ (Rect.block (s := S64x5x4) S64x5x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S524288x64.size a
  hwx0_2 : ∀ i : grid0.Coords, EltTy.bits .f32 = 32 ∨ (Rect.block (s := S524288x64) S4096x64.size (cc0_transform_2 i) (hinb0_2 i)).WholeWords (EltTy.packing .f32)

variable [Facts₀]

abbrev win0_0 : Pipeline.Window sig grid0 :=
  Pipeline.Window.ofSpec (Memref.whole main_v1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x5x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x65536x64 : Shape := ⟨3, ![8, 65536, 64]⟩
abbrev S64x5x4 : Shape := ⟨3, ![64, 5, 4]⟩
abbrev S8x64x65536 : Shape := ⟨3, ![8, 64, 65536]⟩
abbrev S524288x64 : Shape := ⟨2, ![524288, 64]⟩
abbrev S_ : Shape := ⟨0, ![]⟩
abbrev S64 : Shape := ⟨1, ![64]⟩
abbrev S1x64 : Shape := ⟨2, ![1, 64]⟩
abbrev S524288x64x1 : Shape := ⟨3, ![524288, 64, 1]⟩
abbrev S524288x64x2 : Shape := ⟨3, ![524288, 64, 2]⟩
abbrev S524288x64x4 : Shape := ⟨3, ![524288, 64, 4]⟩

abbrev nBuf : Space → Nat
  | .hbm => 67
  | .vmem => 0
  | .smem => 0
  | _ => 0

abbrev bufTy : (tb : Table) → Fin (tcTables nBuf tb) → BufTy
  | .hbm, ⟨0, _⟩ => ⟨S8x65536x64, .f32⟩
  | .hbm, ⟨1, _⟩ => ⟨S64x5x4, .f32⟩
  | .hbm, ⟨2, _⟩ => ⟨S8x64x65536, .f32⟩
  | .hbm, ⟨3, _⟩ => ⟨S524288x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S524288x64, .f32⟩
  | .hbm, ⟨8, _⟩ => ⟨S524288x64, .f32⟩
  | .hbm, ⟨9, _⟩ => ⟨S_, .f32⟩
  | .hbm, ⟨10, _⟩ => ⟨S524288x64, .f32⟩
  | .hbm, ⟨11, _⟩ => ⟨S524288x64, .f32⟩
  | .hbm, ⟨12, _⟩ => ⟨S_, .f32⟩
  | .hbm, ⟨13, _⟩ => ⟨S524288x64, .f32⟩
  | .hbm, ⟨14, _⟩ => ⟨S524288x64, .f32⟩
  | .hbm, ⟨15, _⟩ => ⟨S524288x64, .f32⟩
  | .hbm, ⟨16, _⟩ => ⟨S524288x64, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S524288x64, .i32⟩
  | .hbm, ⟨21, _⟩ => ⟨S524288x64, .i32⟩
  | .hbm, ⟨22, _⟩ => ⟨S_, .i32⟩
  | .hbm, ⟨23, _⟩ => ⟨S524288x64, .i32⟩
  | .hbm, ⟨24, _⟩ => ⟨S524288x64, .i32⟩
  | .hbm, ⟨25, _⟩ => ⟨S524288x64, .f32⟩
  | .hbm, ⟨26, _⟩ => ⟨S_, .f32⟩
  | .hbm, ⟨27, _⟩ => ⟨S524288x64, .f32⟩
  | .hbm, ⟨28, _⟩ => ⟨S524288x64, .f32⟩
  | .hbm, ⟨29, _⟩ => ⟨S524288x64, .f32⟩
  | .hbm, ⟨30, _⟩ => ⟨S64, .i32⟩
  | .hbm, ⟨31, _⟩ => ⟨S1x64, .i32⟩
  | .hbm, ⟨32, _⟩ => ⟨S_, .i32⟩
  | .hbm, ⟨33, _⟩ => ⟨S1x64, .i32⟩
  | .hbm, ⟨34, _⟩ => ⟨S1x64, .i1⟩
  | .hbm, ⟨35, _⟩ => ⟨S_, .i32⟩
  | .hbm, ⟨36, _⟩ => ⟨S1x64, .i32⟩
  | .hbm, ⟨37, _⟩ => ⟨S1x64, .i32⟩
  | .hbm, ⟨38, _⟩ => ⟨S1x64, .i32⟩
  | .hbm, ⟨39, _⟩ => ⟨S_, .i32⟩
  | .hbm, ⟨40, _⟩ => ⟨S524288x64, .i32⟩
  | .hbm, ⟨41, _⟩ => ⟨S524288x64, .i1⟩
  | .hbm, ⟨42, _⟩ => ⟨S_, .i32⟩
  | .hbm, ⟨43, _⟩ => ⟨S524288x64, .i32⟩
  | .hbm, ⟨44, _⟩ => ⟨S524288x64, .i32⟩
  | .hbm, ⟨45, _⟩ => ⟨S524288x64, .i32⟩
  | .hbm, ⟨46, _⟩ => ⟨S524288x64, .i32⟩
  | .hbm, ⟨47, _⟩ => ⟨S524288x64x1, .i32⟩
  | .hbm, ⟨48, _⟩ => ⟨S524288x64x1, .i32⟩
  | .hbm, ⟨49, _⟩ => ⟨S524288x64x2, .i32⟩
  | .hbm, ⟨50, _⟩ => ⟨S524288x64x4, .f32⟩
  | .hbm, ⟨51, _⟩ => ⟨S524288x64x1, .f32⟩
  | .hbm, ⟨52, _⟩ => ⟨S524288x64, .f32⟩
  | .hbm, ⟨53, _⟩ => ⟨S524288x64, .f32⟩
  | .hbm, ⟨54, _⟩ => ⟨S524288x64x1, .f32⟩
  | .hbm, ⟨55, _⟩ => ⟨S524288x64, .f32⟩
  | .hbm, ⟨56, _⟩ => ⟨S524288x64, .f32⟩
  | .hbm, ⟨57, _⟩ => ⟨S524288x64, .f32⟩
  | .hbm, ⟨58, _⟩ => ⟨S524288x64x1, .f32⟩
  | .hbm, ⟨59, _⟩ => ⟨S524288x64, .f32⟩
  | .hbm, ⟨60, _⟩ => ⟨S524288x64, .f32⟩
  | .hbm, ⟨61, _⟩ => ⟨S524288x64, .f32⟩
  | .hbm, ⟨62, _⟩ => ⟨S524288x64x1, .f32⟩
  | .hbm, ⟨63, _⟩ => ⟨S524288x64, .f32⟩
  | .hbm, ⟨64, _⟩ => ⟨S524288x64, .f32⟩
  | .hbm, ⟨65, _⟩ => ⟨S8x65536x64, .f32⟩
  | .hbm, ⟨66, _⟩ => ⟨S8x64x65536, .f32⟩
  | _, _ => ⟨S8x65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  transposes_S8x65536x64_S8x64x65536_0_2_1 : S8x65536x64.Transposes [0, 2, 1] S8x64x65536
  shapeCasts_S8x64x65536_S524288x64 : S8x64x65536.ShapeCasts S524288x64
  bcast_S_S524288x64 : S_.BroadcastsInDim S524288x64 (![] : Fin 0 → Fin S524288x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S524288x64_0_1 : S1x64.BroadcastsInDim S524288x64 (![0, 1] : Fin 2 → Fin S524288x64.rank)
  bcast_S524288x64_S524288x64x1_0_1 : S524288x64.BroadcastsInDim S524288x64x1 (![0, 1] : Fin 2 → Fin S524288x64x1.rank)
  concatenates_S524288x64x1_S524288x64x1_S524288x64x2_d2 : Shape.Concatenates [S524288x64x1, S524288x64x1] S524288x64x2 2
  slices_S524288x64x4_S524288x64x1_0_0_3 : S524288x64x4.Slices ![0, 0, 3] S524288x64x1
  shapeCasts_S524288x64x1_S524288x64 : S524288x64x1.ShapeCasts S524288x64
  slices_S524288x64x4_S524288x64x1_0_0_2 : S524288x64x4.Slices ![0, 0, 2] S524288x64x1
  slices_S524288x64x4_S524288x64x1_0_0_1 : S524288x64x4.Slices ![0, 0, 1] S524288x64x1
  slices_S524288x64x4_S524288x64x1_0_0_0 : S524288x64x4.Slices ![0, 0, 0] S524288x64x1
  shapeCasts_S524288x64_S8x65536x64 : S524288x64.ShapeCasts S8x65536x64
  gather_S64x5x4_S524288x64x2_S524288x64x4_2_01_n_n_01_2_114_wf : GatherDims.WF S64x5x4 S524288x64x2 S524288x64x4 [2] [0, 1] [] [0, 1] [] 2 ![1, 1, 4]

variable [Facts₀]

def gather_S64x5x4_S524288x64x2_S524288x64x4_2_01_n_n_01_2_114 : GatherDims S64x5x4 S524288x64x2 S524288x64x4 where
  offsetDims := [2]
  collapsedSliceDims := [0, 1]
  operandBatchingDims := []
  startIndicesBatchingDims := []
  startIndexMap := [0, 1]
  indexVectorDim := 2
  sliceSizes := ![1, 1, 4]
  wf := gather_S64x5x4_S524288x64x2_S524288x64x4_2_01_n_n_01_2_114_wf

class Facts : Prop extends Facts₀ where

variable [Facts]
-- ==== Proof.Cell.lean ====
/-
  Signed 32-bit words clamped into the five cells of the spline's grid: `min 4 (max 0 w)` is one of 0, 1, 2, 3, 4,
  whatever `w` is. Both programs choose a cubic's coefficients by this word; every later case split is over these
  five values.
-/
import Idealize.ShloMosaic.PureOps.Ideal

namespace Cert.Spline

open Idealize.ShloMosaic

/-- The cell word of a raw word: clamped from below at 0, then from above at 4 (signed). -/
def cellOf (w : BitVec 32) : BitVec 32 := IntOp.minsi 4#32 (IntOp.maxsi 0#32 w)

/-- A word whose signed value is `k` is the literal `k`. -/
theorem eq_of_toInt (w : BitVec 32) (k : BitVec 32) (h : w.toInt = k.toInt) : w = k := BitVec.eq_of_toInt_eq h

/-- The clamped word is one of the five cell numbers. -/
theorem cellOf_cases (w : BitVec 32) :
    cellOf w = 0#32 ∨ cellOf w = 1#32 ∨ cellOf w = 2#32 ∨ cellOf w = 3#32 ∨ cellOf w = 4#32 := by
  unfold cellOf IntOp.minsi IntOp.maxsi
  by_cases hneg : w.slt 0#32 = true
  · rw [if_pos hneg]
    left
    rw [if_neg (by decide)]
  · rw [if_neg hneg]
    by_cases hbig : (4#32 : BitVec 32).slt w = true
    · rw [if_pos hbig]; right; right; right; right; rfl
    · rw [if_neg hbig]
      have h0 : (0 : Int) ≤ w.toInt := by
        have : ¬ (w.toInt < (0#32 : BitVec 32).toInt) := by simpa [BitVec.slt] using hneg
        have e : (0#32 : BitVec 32).toInt = 0 := by decide
        omega
      have h4 : w.toInt ≤ 4 := by
        have : ¬ ((4#32 : BitVec 32).toInt < w.toInt) := by simpa [BitVec.slt] using hbig
        have e : (4#32 : BitVec 32).toInt = 4 := by decide
        omega
      have hc : w.toInt = 0 ∨ w.toInt = 1 ∨ w.toInt = 2 ∨ w.toInt = 3 ∨ w.toInt = 4 := by omega
      rcases hc with h | h | h | h | h
      · left; exact eq_of_toInt w 0#32 (by rw [h]; decide)
      · right; left; exact eq_of_toInt w 1#32 (by rw [h]; decide)
      · right; right; left; exact eq_of_toInt w 2#32 (by rw [h]; decide)
      · right; right; right; left; exact eq_of_toInt w 3#32 (by rw [h]; decide)
      · right; right; right; right; exact eq_of_toInt w 4#32 (by rw [h]; decide)

end Cert.Spline
-- ==== Proof.Spline.lean ====
/-
  The spline both programs evaluate, at one element.

  An abscissa `x` is clipped to [0, 1]; its cell is `floor (5 · clip x)` converted to a signed word and clamped to
  0 … 4; its local coordinate is `t = clip x − cell / 5`; the value is the cubic
  `((c₃ · t + c₂) · t + c₁) · t + c₀` whose four coefficients are row `cell` of a 5 × 4 table.

  The kernel computes all five cubics and keeps one by a chain of selects on `cell = k`; the reference reads the
  one row it needs (a gather whose start index is the cell word, wrapped if negative, read signed and clamped).
  Because the cell word is one of 0 … 4, the two choices agree: `selected_eq_row`. No arithmetic law of the
  extended reals is used: both sides build the same term of the same operations.
-/
import proofs.«173336_j11089605558325_1_alg».proof.Proof.Cell
import Idealize.ShloMosaic.Lib.ValueIdx

noncomputable section

namespace Cert.Spline

open Idealize.ShloMosaic

/-- An element at the ideal instance: an extended real. -/
abbrev E : Type := Ideal .f32

/-- `min 1 (max 0 x)`. -/
def clip (x : E) : E :=
  FloatOps.minimumf (FloatOps.ofBits (F := Ideal) .f32 0x3F800000#32) (FloatOps.maximumf (FloatOps.ofBits (F := Ideal) .f32 0x00000000#32) x)

/-- The cell word of `x`: `floor (clip x · 5)` as a signed word, clamped to 0 … 4. -/
def cell (x : E) : BitVec 32 :=
  cellOf (FloatOps.fptosi 32 (FloatOps.floor (FloatOps.mulf (clip x) (FloatOps.ofBits (F := Ideal) .f32 0x40A00000#32))))

/-- The local coordinate `clip x − cell x / 5`. -/
def loc (x : E) : E :=
  FloatOps.subf (clip x) (FloatOps.divf (FloatOps.sitofp (F := Ideal) .f32 (cell x)) (FloatOps.ofBits (F := Ideal) .f32 0x40A00000#32))

/-- Horner's form of a cubic. -/
def cubic (c0 c1 c2 c3 t : E) : E :=
  FloatOps.addf (FloatOps.mulf (FloatOps.addf (FloatOps.mulf (FloatOps.addf (FloatOps.mulf c3 t) c2) t) c1) t) c0

/-- The kernel's choice among five candidates: the last test that holds wins, zero if none does. -/
def selected (z : BitVec 32) (v0 v1 v2 v3 v4 : E) : E :=
  Scalar.select (IntOp.cmpi .eq z 4#32) v4 (Scalar.select (IntOp.cmpi .eq z 3#32) v3 (Scalar.select (IntOp.cmpi .eq z 2#32) v2
    (Scalar.select (IntOp.cmpi .eq z 1#32) v1 (Scalar.select (IntOp.cmpi .eq z 0#32) v0 (FloatOps.ofBits (F := Ideal) .f32 0x00000000#32)))))

/-- The row a gather reads for start word `z` on an axis of extent 5: `z` wrapped by 5 if negative, read signed, clamped. -/
def rowOf (z : BitVec 32) : Fin 5 :=
  ⟨min (Scalar.select (IntOp.cmpi .slt z 0#32) (IntOp.addi z 5#32) z).toInt.toNat 4, by omega⟩

/-- On a cell word the select chain keeps the candidate of the row the gather reads. -/
theorem selected_eq_row (z : BitVec 32) (hz : z = 0#32 ∨ z = 1#32 ∨ z = 2#32 ∨ z = 3#32 ∨ z = 4#32) (f : Fin 5 → E) :
    selected z (f 0) (f 1) (f 2) (f 3) (f 4) = f (rowOf z) := by
  rcases hz with rfl | rfl | rfl | rfl | rfl
  · have e : rowOf 0#32 = 0 := by decide
    rw [e]; unfold selected Scalar.select
    rw [if_neg (by decide), if_neg (by decide), if_neg (by decide), if_neg (by decide), if_pos (by decide)]
  · have e : rowOf 1#32 = 1 := by decide
    rw [e]; unfold selected Scalar.select
    rw [if_neg (by decide), if_neg (by decide), if_neg (by decide), if_pos (by decide)]
  · have e : rowOf 2#32 = 2 := by decide
    rw [e]; unfold selected Scalar.select
    rw [if_neg (by decide), if_neg (by decide), if_pos (by decide)]
  · have e : rowOf 3#32 = 3 := by decide
    rw [e]; unfold selected Scalar.select
    rw [if_neg (by decide), if_pos (by decide)]
  · have e : rowOf 4#32 = 4 := by decide
    rw [e]; unfold selected Scalar.select
    rw [if_pos (by decide)]

/-- The spline at `x` over a 5 × 4 table, the row read directly (the reference's form). -/
def atRow (x : E) (tbl : Fin 5 → Fin 4 → E) : E :=
  cubic (tbl (rowOf (cell x)) 0) (tbl (rowOf (cell x)) 1) (tbl (rowOf (cell x)) 2) (tbl (rowOf (cell x)) 3) (loc x)

/-- The spline at `x`, all five cubics computed and one selected (the kernel's form). -/
def bySelect (x : E) (tbl : Fin 5 → Fin 4 → E) : E :=
  selected (cell x)
    (cubic (tbl 0 0) (tbl 0 1) (tbl 0 2) (tbl 0 3) (loc x)) (cubic (tbl 1 0) (tbl 1 1) (tbl 1 2) (tbl 1 3) (loc x))
    (cubic (tbl 2 0) (tbl 2 1) (tbl 2 2) (tbl 2 3) (loc x)) (cubic (tbl 3 0) (tbl 3 1) (tbl 3 2) (tbl 3 3) (loc x))
    (cubic (tbl 4 0) (tbl 4 1) (tbl 4 2) (tbl 4 3) (loc x))

/-- The two forms are one function. -/
theorem bySelect_eq_atRow (x : E) (tbl : Fin 5 → Fin 4 → E) : bySelect x tbl = atRow x tbl :=
  selected_eq_row (cell x) (cellOf_cases _) (fun k => cubic (tbl k 0) (tbl k 1) (tbl k 2) (tbl k 3) (loc x))

/-- The spline over an [n, 64] array of abscissae with the table of column `q` taken from a [64, 5, 4] array. -/
def onArray {n : Nat} (xp : (⟨2, ![n, 64]⟩ : Shape).Idx → E) (cf : (⟨3, ![64, 5, 4]⟩ : Shape).Idx → E) :
    (⟨2, ![n, 64]⟩ : Shape).Idx → E :=
  fun i => atRow (xp i) (fun k j => cf (ValueIdx.ix3 (i 1) k j))

/-- THE WHOLE FUNCTION both programs compute: the [8, 65536, 64] abscissae with their last two axes swapped, laid out as
    [524288, 64], splined element by element with column `q`'s table, laid back as [8, 65536, 64] and swapped again. -/
def whole (hT : (⟨3, ![8, 65536, 64]⟩ : Shape).Transposes [0, 2, 1] ⟨3, ![8, 64, 65536]⟩)
    (hC : (⟨3, ![8, 64, 65536]⟩ : Shape).ShapeCasts ⟨2, ![524288, 64]⟩)
    (hC' : (⟨2, ![524288, 64]⟩ : Shape).ShapeCasts ⟨3, ![8, 65536, 64]⟩)
    (x : (⟨3, ![8, 65536, 64]⟩ : Shape).Idx → E) (cf : (⟨3, ![64, 5, 4]⟩ : Shape).Idx → E) :
    (⟨3, ![8, 64, 65536]⟩ : Shape).Idx → E :=
  transpose ⟨3, ![8, 64, 65536]⟩ [0, 2, 1]
    (shapeCast ⟨3, ![8, 65536, 64]⟩
      (onArray (shapeCast ⟨2, ![524288, 64]⟩ (transpose ⟨3, ![8, 64, 65536]⟩ [0, 2, 1] x hT) hC) cf) hC') hT

end Cert.Spline

end
-- ==== Proof.GatherRead.lean ====
/-
  The reference's gather, read at an index.

  The coefficient array [64, 5, 4] is gathered at start indices [524288, 64, 2]: the two words at (r, q, ·) are the
  starts on axes 0 and 1, both collapsed, and the third axis is taken whole (slice size 4). Result element (r, q, j)
  is the array at (a, b, j), with a the first word read signed and clamped into [0, 63] and b the second read signed
  and clamped into [0, 4] — the clamp every gather applies to its start indices.
-/
import proofs.«173336_j11089605558325_1_alg».proof.ReferenceIdeal
import Idealize.ShloMosaic.Lib.ValueIdx

noncomputable section

namespace Cert.ReferenceIdeal.GatherRead

open Idealize.ShloMosaic Idealize.ShloMosaic.ValueIdx Cert.ReferenceIdeal

variable [Facts]

/-- The printed gather's dimension numbers. -/
abbrev dims : GatherDims S64x5x4 S524288x64x2 S524288x64x4 := gather_S64x5x4_S524288x64x2_S524288x64x4_2_01_n_n_01_2_114

/-- The start-indices index of component `c` for result index (r, q, j) is (r, q, c). -/
theorem siIdx_eq (r : Fin 524288) (q : Fin 64) (j : Fin 4) (c : Fin dims.startIndexMap.length) (c' : Fin 2) (hc : c.val = c'.val) :
    dims.siIdx (ix3 r q j : S524288x64x4.Idx) c = (ix3 r q c' : S524288x64x2.Idx) := by
  funext b
  refine Fin.ext ?_
  match b with
  | ⟨0, _⟩ => rfl
  | ⟨1, _⟩ => rfl
  | ⟨2, _⟩ => exact hc

/-- THE GATHER READ AT (r, q, j). -/
theorem gather_apply {α : Type} (x : S64x5x4.Idx → α) (idx : IVec S524288x64x2 32) (r : Fin 524288) (q : Fin 64) (j : Fin 4) :
    Host.gather dims x idx (ix3 r q j)
      = x (ix3 (⟨min (idx (ix3 r q 0)).toInt.toNat 63, by omega⟩ : Fin 64) (⟨min (idx (ix3 r q 1)).toInt.toNat 4, by omega⟩ : Fin 5) j) := by
  unfold Host.gather
  congr 1
  funext a
  refine Fin.ext ?_
  match a with
  | ⟨0, _⟩ =>
    show dims.start (ix3 r q j) idx 0 + dims.batchCoord (ix3 r q j) 0 + dims.offCoord (ix3 r q j) 0 = _
    rw [GatherDims.batchCoord_eq_zero _ _ _ List.not_mem_nil,
      GatherDims.offCoord_eq_zero _ _ _ (fun h => ((GatherDims.mem_sKept _ _).mp h).1 (show (0 : Fin 3) ∈ ([0, 1] : List (Fin 3)) from by decide))]
    simp only [Nat.add_zero]
    unfold GatherDims.start
    have hm : (0 : Fin 3) ∈ dims.startIndexMap := (show (0 : Fin 3) ∈ ([0, 1] : List (Fin 3)) from by decide)
    rw [dif_pos hm, siIdx_eq r q j ⟨List.idxOf (0 : Fin 3) dims.startIndexMap, List.idxOf_lt_length_iff.2 hm⟩ 0 rfl]
    rfl
  | ⟨1, _⟩ =>
    show dims.start (ix3 r q j) idx 1 + dims.batchCoord (ix3 r q j) 1 + dims.offCoord (ix3 r q j) 1 = _
    rw [GatherDims.batchCoord_eq_zero _ _ _ List.not_mem_nil,
      GatherDims.offCoord_eq_zero _ _ _ (fun h => ((GatherDims.mem_sKept _ _).mp h).1 (show (1 : Fin 3) ∈ ([0, 1] : List (Fin 3)) from by decide))]
    simp only [Nat.add_zero]
    unfold GatherDims.start
    have hm : (1 : Fin 3) ∈ dims.startIndexMap := (show (1 : Fin 3) ∈ ([0, 1] : List (Fin 3)) from by decide)
    rw [dif_pos hm, siIdx_eq r q j ⟨List.idxOf (1 : Fin 3) dims.startIndexMap, List.idxOf_lt_length_iff.2 hm⟩ 1 rfl]
    rfl
  | ⟨2, _⟩ =>
    show dims.start (ix3 r q j) idx 2 + dims.batchCoord (ix3 r q j) 2 + dims.offCoord (ix3 r q j) 2 = j.val
    rw [GatherDims.batchCoord_eq_zero _ _ _ List.not_mem_nil]
    unfold GatherDims.start
    rw [dif_neg (show (2 : Fin 3) ∉ dims.startIndexMap from (show (2 : Fin 3) ∉ ([0, 1] : List (Fin 3)) from by decide))]
    unfold GatherDims.offCoord
    rw [dif_pos (show (2 : Fin 3) ∈ dims.sKept from (GatherDims.mem_sKept _ _).mpr ⟨(show (2 : Fin 3) ∉ ([0, 1] : List (Fin 3)) from by decide), List.not_mem_nil⟩)]
    simp only [Nat.zero_add]
    rfl

end Cert.ReferenceIdeal.GatherRead

end
-- ==== Proof.RefValue.lean ====
/-
  The reference's result is the spline, element by element.

  The reference clips, finds the cell word and the local coordinate exactly as the kernel does (the same operations in
  the same order; the host's floor and quotient are the kernel's at the ideal instance), and reads its four
  coefficients by one gather whose start index at (r, q) is the pair (q, cell) — the column number from an iota, the
  cell word from the clamp, each wrapped by the axis extent if negative. Neither is negative, the column number is
  below 64 and the cell word at most 4, so the gather's own clamp changes nothing and element (r, q, j) of the
  gathered array is coefficient (q, cell, j). Horner's form over those four is the spline read by row.
-/
import proofs.«173336_j11089605558325_1_alg».proof.Proof.Gen.ReferenceIdeal.Read
import proofs.«173336_j11089605558325_1_alg».proof.Proof.Spline
import proofs.«173336_j11089605558325_1_alg».proof.Proof.GatherRead
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read Cert.Spline

variable (x0 : (⟨S8x65536x64, .f32⟩ : BufTy).Contents (Elt Ideal)) (x1 : (⟨S64x5x4, .f32⟩ : BufTy).Contents (Elt Ideal))

/-- The clipped abscissa. -/
theorem clip_read (i : S524288x64.Idx) : val_main_v2 (F := Ideal) x0 i = clip (val_main_v1 (F := Ideal) x0 i) := by
  rw [val_main_v2_apply, val_main_call0_v4_apply, val_main_call0_v3_apply, val_main_cst_0_apply, val_main_call0_v2_apply,
    val_main_call0_v1_apply, val_main_call0_v0_apply, val_main_cst_apply]
  rfl

/-- The cell word. -/
theorem cell_read (i : S524288x64.Idx) : val_main_v7 (F := Ideal) x0 i = cell (val_main_v1 (F := Ideal) x0 i) := by
  rw [val_main_v7_apply, val_main_call1_v4_apply, val_main_call1_v3_apply, val_main_c_2_apply, val_main_call1_v2_apply,
    val_main_call1_v1_apply, val_main_call1_v0_apply, val_main_c_apply, val_main_v6_apply, val_main_v5_apply,
    val_main_v4_apply, val_main_v3_apply, val_main_cst_1_apply, clip_read]
  rfl

/-- The local coordinate. -/
theorem loc_read (i : S524288x64.Idx) : val_main_v11 (F := Ideal) x0 i = loc (val_main_v1 (F := Ideal) x0 i) := by
  rw [val_main_v11_apply, val_main_v10_apply, val_main_v9_apply, val_main_cst_3_apply, val_main_v8_apply, clip_read, cell_read]
  rfl

/-- A column number below 64, as a word wrapped by 64 if negative, read signed and clamped into [0, 63], is itself. -/
theorem column_clamp : ∀ q : Fin 64,
    min (Scalar.select (IntOp.cmpi .slt (BitVec.ofNat 32 q.val) 0#32) (IntOp.addi (BitVec.ofNat 32 q.val) 64#32) (BitVec.ofNat 32 q.val)).toInt.toNat 63 = q.val := by
  decide

/-- The first start word at (r, q): the column number `q` (from the iota), wrapped if negative. -/
theorem start_column (r : Fin 524288) (q : Fin 64) :
    val_main_v27 (F := Ideal) x0 (ix3 r q (0 : Fin 2))
      = Scalar.select (IntOp.cmpi .slt (BitVec.ofNat 32 q.val) 0#32) (IntOp.addi (BitVec.ofNat 32 q.val) 64#32) (BitVec.ofNat 32 q.val) := by
  have e : val_main_v27 (F := Ideal) x0 (ix3 r q (0 : Fin 2)) = val_main_v25 (F := Ideal) (ix3 r q (0 : Fin 1)) := by
    unfold val_main_v27
    exact concatenate_pair_apply_left (t := S524288x64x2) (s₁ := S524288x64x1) (s₂ := S524288x64x1) 2
      (val_main_v25 (F := Ideal)) (val_main_v26 (F := Ideal) x0) concatenates_S524288x64x1_S524288x64x1_S524288x64x2_d2
      (ix3 r q (0 : Fin 2)) rfl (ix3 r q (0 : Fin 1)) (fun b => by
        match b with
        | ⟨0, _⟩ => rfl
        | ⟨1, _⟩ => rfl
        | ⟨2, _⟩ => rfl)
  rw [e, val_main_v25_apply, val_main_v24_apply, val_main_v18_apply, val_main_v15_apply, val_main_v17_apply, val_main_v16_apply,
    val_main_c_5_apply, val_main_v14_apply, val_main_c_4_apply, val_main_v13_apply, val_main_v12_apply]

/-- The second start word at (r, q): the cell word there, wrapped if negative. -/
theorem start_cell (r : Fin 524288) (q : Fin 64) :
    val_main_v27 (F := Ideal) x0 (ix3 r q (1 : Fin 2))
      = Scalar.select (IntOp.cmpi .slt (val_main_v7 (F := Ideal) x0 (ix2 r q)) 0#32)
          (IntOp.addi (val_main_v7 (F := Ideal) x0 (ix2 r q)) 5#32) (val_main_v7 (F := Ideal) x0 (ix2 r q)) := by
  have e : val_main_v27 (F := Ideal) x0 (ix3 r q (1 : Fin 2)) = val_main_v26 (F := Ideal) x0 (ix3 r q (0 : Fin 1)) := by
    unfold val_main_v27
    exact concatenate_pair_apply_right (t := S524288x64x2) (s₁ := S524288x64x1) (s₂ := S524288x64x1) 2
      (val_main_v25 (F := Ideal)) (val_main_v26 (F := Ideal) x0) concatenates_S524288x64x1_S524288x64x1_S524288x64x2_d2
      (ix3 r q (1 : Fin 2)) rfl rfl (ix3 r q (0 : Fin 1)) (fun b hb => by
        match b with
        | ⟨0, _⟩ => rfl
        | ⟨1, _⟩ => rfl
        | ⟨2, _⟩ => exact absurd rfl hb) rfl
  have ei : idx_main_v26 (ix3 r q (0 : Fin 1)) = ix2 r q := by
    funext a
    match a with
    | ⟨0, _⟩ => rfl
    | ⟨1, _⟩ => rfl
  rw [e, val_main_v26_apply, ei, val_main_v23_apply, val_main_v20_apply, val_main_v22_apply, val_main_v21_apply, val_main_c_7_apply,
    val_main_v19_apply, val_main_c_6_apply]

/-- THE GATHERED COEFFICIENT at (r, q, j), r and q the coordinates of an element `i` of the [524288, 64] array: the
    coefficient array at (q, row of the cell word at `i`, j). -/
theorem gathered (i : S524288x64.Idx) (j : Fin 4) :
    val_main_v28 (F := Ideal) x0 x1 (ix3 (i 0 : Fin 524288) (i 1 : Fin 64) j)
      = x1 (ix3 (i 1 : Fin 64) (rowOf (val_main_v7 (F := Ideal) x0 i)) j) := by
  unfold val_main_v28
  rw [GatherRead.gather_apply x1 (val_main_v27 (F := Ideal) x0) (i 0) (i 1) j]
  refine congrArg x1 ?_
  funext a
  refine Fin.ext ?_
  match a with
  | ⟨0, _⟩ =>
    exact (congrArg (fun w : BitVec 32 => min w.toInt.toNat 63) (start_column x0 (i 0) (i 1))).trans (column_clamp (i 1))
  | ⟨1, _⟩ =>
    have hi : (ix2 (i 0) (i 1) : S524288x64.Idx) = i := (eq_ix2 i).symm
    have e := start_cell x0 (i 0) (i 1)
    rw [hi] at e
    exact congrArg (fun w : BitVec 32 => min w.toInt.toNat 4) e
  | ⟨2, _⟩ => rfl

/-- Element `i` of the [524288, 64] array, as the slices and reshapes of the gathered array address it. -/
theorem slice_index (i : S524288x64.Idx) (j : Nat) (hj : j < 4) (k : S524288x64x4.Idx)
    (h0 : (k 0).val = ((i 0).val * 64 + (i 1).val) / 64) (h1 : (k 1).val = ((i 0).val * 64 + (i 1).val) / 1 % 64)
    (h2 : (k 2).val = j + 0) : k = ix3 (i 0 : Fin 524288) (i 1 : Fin 64) (⟨j, hj⟩ : Fin 4) := by
  have b0 : (i 0).val < 524288 := (i 0).isLt
  have b1 : (i 1).val < 64 := (i 1).isLt
  funext a
  refine Fin.ext ?_
  match a with
  | ⟨0, _⟩ => show (k 0).val = (i 0).val; omega
  | ⟨1, _⟩ => show (k 1).val = (i 1).val; omega
  | ⟨2, _⟩ => show (k 2).val = j; omega

/-- The four coefficient arrays, at an element. -/
theorem coef3_read (i : S524288x64.Idx) :
    val_main_v30 (F := Ideal) x0 x1 i = x1 (ix3 (i 1 : Fin 64) (rowOf (val_main_v7 (F := Ideal) x0 i)) 3) := by
  rw [val_main_v30_apply, val_main_v29_apply, slice_index i 3 (by decide) (idx_main_v29 (idx_main_v30 i)) rfl rfl rfl]
  exact gathered x0 x1 i 3
theorem coef2_read (i : S524288x64.Idx) :
    val_main_v33 (F := Ideal) x0 x1 i = x1 (ix3 (i 1 : Fin 64) (rowOf (val_main_v7 (F := Ideal) x0 i)) 2) := by
  rw [val_main_v33_apply, val_main_v32_apply, slice_index i 2 (by decide) (idx_main_v32 (idx_main_v33 i)) rfl rfl rfl]
  exact gathered x0 x1 i 2
theorem coef1_read (i : S524288x64.Idx) :
    val_main_v37 (F := Ideal) x0 x1 i = x1 (ix3 (i 1 : Fin 64) (rowOf (val_main_v7 (F := Ideal) x0 i)) 1) := by
  rw [val_main_v37_apply, val_main_v36_apply, slice_index i 1 (by decide) (idx_main_v36 (idx_main_v37 i)) rfl rfl rfl]
  exact gathered x0 x1 i 1
theorem coef0_read (i : S524288x64.Idx) :
    val_main_v41 (F := Ideal) x0 x1 i = x1 (ix3 (i 1 : Fin 64) (rowOf (val_main_v7 (F := Ideal) x0 i)) 0) := by
  rw [val_main_v41_apply, val_main_v40_apply, slice_index i 0 (by decide) (idx_main_v40 (idx_main_v41 i)) rfl rfl rfl]
  exact gathered x0 x1 i 0

/-- THE [524288, 64] RESULT is the spline of the laid-out abscissae, read by row. -/
theorem splined : val_main_v42 (F := Ideal) x0 x1 = onArray (n := 524288) (val_main_v1 (F := Ideal) x0) x1 := by
  funext i
  rw [val_main_v42_apply, val_main_v39_apply, val_main_v38_apply, val_main_v35_apply, val_main_v34_apply, val_main_v31_apply,
    coef3_read, coef2_read, coef1_read, coef0_read, loc_read, cell_read]
  rfl

/-- THE REFERENCE'S RESULT is the whole function of the arguments. -/
theorem result_eq : val_main_v44 (F := Ideal) x0 x1
    = whole transposes_S8x65536x64_S8x64x65536_0_2_1 shapeCasts_S8x64x65536_S524288x64 shapeCasts_S524288x64_S8x65536x64 x0 x1 := by
  unfold val_main_v44 val_main_v43
  rw [splined]
  rfl

end Cert.ReferenceIdeal.RefValue

end
-- ==== Proof.KernelPoint.lean ====
/-
  What the kernel's body stores, at one element.

  The body loads a [4096, 64] block of abscissae and the whole [64, 5, 4] coefficient array, and stores one
  [4096, 64] block. Element (p, q) of the stored block depends on the loaded block at (p, q) alone and on the
  twenty coefficients of column q: every coefficient enters as a [64] column of the array laid as a [1, 64] row
  and broadcast over the 4096 rows, so at (p, q) it is the array at (q, k, j). The clip, the cell word and the
  local coordinate are pointwise; the five cubics are pointwise over those rows; the select chain is pointwise.
  So the stored element is the spline in its "all five, select one" form.
-/
import proofs.«173336_j11089605558325_1_alg».proof.Proof.Gen.KernelIdeal.Frame
import proofs.«173336_j11089605558325_1_alg».proof.Proof.Spline
import Idealize.ShloMosaic.Lib.ValueLayout

noncomputable section

namespace Cert.KernelIdeal.Point

open Idealize.ShloMosaic Idealize.ShloMosaic.ValueIdx Cert.KernelIdeal Cert.KernelIdeal.Gen Cert.Spline

theorem hz2 : (![0, 0] : Fin 2 → Nat) = fun _ => 0 := funext fun a => by fin_cases a <;> rfl
theorem hz3 : (![0, 0, 0] : Fin 3 → Nat) = fun _ => 0 := funext fun a => by fin_cases a <;> rfl

/-- A [64, 1, 1] column cast to [64] reads, at q, the column at (q, 0, 0). -/
theorem column_cast_apply (v : FVec Ideal S64x1x1 .f32) (h : S64x1x1.ShapeCasts S64) (q : Fin 64) :
    shapeCast S64 v h (ix1 q) = v (ix3 q (0 : Fin 1) (0 : Fin 1)) :=
  shapeCast_apply v h _ _ (by
    rw [Shape.rowMajor_val_three, Shape.rowMajor_val_one]
    show (q.val * 1 + 0) * 1 + 0 = q.val
    omega)

/-- Coefficient (k, j) as the body spreads it over a block: at (p, q) it is the coefficient array at (q, k, j). -/
theorem coef_apply (cf : Vec Ideal S64x5x4 .f32) (k j : Nat) (hk : k < 5) (hj : j < 4)
    (h1 : S64x5x4.Slices ![0, k, j] S64x1x1) (h2 : S64x1x1.ShapeCasts S64) (h3 : S64.ShapeCasts S1x64)
    (h4 : S1x64.Broadcasts S4096x64) (p : Fin 4096) (q : Fin 64) :
    broadcastTo S4096x64 (shapeCast S1x64 (shapeCast S64 (extractStridedSlice S64x1x1 ![0, k, j] cf h1) h2) h3) h4 (ix2 p q)
      = cf (ix3 q ⟨k, hk⟩ ⟨j, hj⟩) := by
  rw [broadcastTo_1b_ab_apply, shapeCast_a_1a_apply, column_cast_apply]
  exact extractStridedSlice_apply _ _ _ _ _ (fun ax => by
    match ax with
    | ⟨0, _⟩ => exact (Nat.zero_add _).symm
    | ⟨1, _⟩ => show k = k + 0; omega
    | ⟨2, _⟩ => show j = j + 0; omega)

/-- The cubic of row k over a block, at (p, q): Horner's form over the coefficients of column q and the local
    coordinate there. -/
theorem cubicRow_apply (cf : Vec Ideal S64x5x4 .f32) (t : FVec Ideal S4096x64 .f32) (k : Nat) (hk : k < 5)
    (g0 : S64x5x4.Slices ![0, k, 0] S64x1x1) (g1 : S64x5x4.Slices ![0, k, 1] S64x1x1)
    (g2 : S64x5x4.Slices ![0, k, 2] S64x1x1) (g3 : S64x5x4.Slices ![0, k, 3] S64x1x1)
    (h2 : S64x1x1.ShapeCasts S64) (h3 : S64.ShapeCasts S1x64) (h4 : S1x64.Broadcasts S4096x64) (p : Fin 4096) (q : Fin 64) :
    addf (mulf (addf (mulf (addf (mulf
        (broadcastTo S4096x64 (shapeCast S1x64 (shapeCast S64 (extractStridedSlice S64x1x1 ![0, k, 3] cf g3) h2) h3) h4) t)
        (broadcastTo S4096x64 (shapeCast S1x64 (shapeCast S64 (extractStridedSlice S64x1x1 ![0, k, 2] cf g2) h2) h3) h4)) t)
        (broadcastTo S4096x64 (shapeCast S1x64 (shapeCast S64 (extractStridedSlice S64x1x1 ![0, k, 1] cf g1) h2) h3) h4)) t)
        (broadcastTo S4096x64 (shapeCast S1x64 (shapeCast S64 (extractStridedSlice S64x1x1 ![0, k, 0] cf g0) h2) h3) h4) (ix2 p q)
      = cubic (cf (ix3 q ⟨k, hk⟩ 0)) (cf (ix3 q ⟨k, hk⟩ 1)) (cf (ix3 q ⟨k, hk⟩ 2)) (cf (ix3 q ⟨k, hk⟩ 3)) (t (ix2 p q)) := by
  simp only [addf, mulf, cubic]
  rw [coef_apply cf k 3 hk (by decide), coef_apply cf k 2 hk (by decide), coef_apply cf k 1 hk (by decide),
    coef_apply cf k 0 hk (by decide)]
  rfl

/-- The clipped block, at an element. -/
theorem clip_apply (x0 : Vec Ideal S4096x64 .f32) (y : S4096x64.Idx) : k0_pay2 x0 y = clip (x0 y) := by
  unfold k0_pay2
  rw [shapeCast_self]
  rfl

/-- The cell words of a block, at an element. -/
theorem cell_apply (x0 : Vec Ideal S4096x64 .f32) (y : S4096x64.Idx) : k0_pay3 x0 y = cell (x0 y) := by
  unfold k0_pay3
  show cellOf (FloatOps.fptosi 32 (FloatOps.floor (FloatOps.mulf (k0_pay2 x0 y) (FloatOps.ofBits .f32 0x40A00000#32)))) = _
  rw [clip_apply]
  rfl

/-- The local coordinates of a block, at an element. -/
theorem loc_apply (x0 : Vec Ideal S4096x64 .f32) (y : S4096x64.Idx) : k0_pay4 x0 y = loc (x0 y) := by
  unfold k0_pay4
  show FloatOps.subf (k0_pay2 x0 y) (FloatOps.divf (FloatOps.sitofp .f32 (k0_pay3 x0 y)) (FloatOps.ofBits .f32 0x40A00000#32)) = _
  rw [clip_apply, cell_apply]
  rfl

/-- THE STORED BLOCK at (p, q): the spline of the loaded abscissa there over the table of column q, all five cubics
    computed and one selected. -/
theorem out_apply (x0 : Vec Ideal S4096x64 .f32) (x1 : Vec Ideal S64x5x4 .f32) (p : Fin 4096) (q : Fin 64) :
    out0_2 x0 x1 (ix2 p q) = bySelect (x0 (ix2 p q)) (fun k j => x1 (ix3 q k j)) := by
  unfold out0_2
  rw [View.canon_unit_zero hz2]
  simp only [View.ld_unit_zero (S := S4096x64) hz2, View.ld_unit_zero (S := S64x5x4) hz3]
  unfold k0_pay1 k0_pay7 k0_pay5 k0_pay6 k0_pay8 k0_pay9 k0_pay10
  simp only [select_apply]
  rw [cubicRow_apply x1 (k0_pay4 x0) 4 (by decide), cubicRow_apply x1 (k0_pay4 x0) 3 (by decide),
    cubicRow_apply x1 (k0_pay4 x0) 2 (by decide), cubicRow_apply x1 (k0_pay4 x0) 1 (by decide),
    cubicRow_apply x1 (k0_pay4 x0) 0 (by decide)]
  simp only [loc_apply]
  show selected (k0_pay3 x0 (ix2 p q)) _ _ _ _ _ = _
  rw [cell_apply]
  rfl

/-- The stored block is the spline's select form at every element. -/
theorem out_eq (x0 : Vec Ideal S4096x64 .f32) (x1 : Vec Ideal S64x5x4 .f32) :
    out0_2 x0 x1 = fun y => bySelect (x0 y) (fun k j => x1 (ix3 (y 1) k j)) := by
  funext y
  obtain ⟨p, q, rfl⟩ : ∃ (p : Fin 4096) (q : Fin 64), y = ix2 p q := ⟨y 0, y 1, eq_ix2 y⟩
  exact out_apply x0 x1 p q

end Cert.KernelIdeal.Point

end
-- ==== Proof.KernelValue.lean ====
/-
  The kernel's result array is the whole function of its arguments.

  The region's first window stages block t of the laid-out abscissae (rows 4096·t … 4096·t + 4095, all 64 columns), its
  second the whole coefficient array at every point, and its third writes block t of the result back at every point.
  What the body leaves in the third window's buffer is, element by element, the spline of the first window's element
  over the second window's column (the select form), which is the spline read by row; so each point writes back block t
  of the spline of the whole laid-out array, the 128 blocks tile the [524288, 64] result, and the result array ends as
  that spline. The host operations before the region lay the abscissae out, those after it lay the result back.
-/
import proofs.«173336_j11089605558325_1_alg».proof.Proof.Gen.KernelIdeal.Frame
import proofs.«173336_j11089605558325_1_alg».proof.Proof.KernelPoint
import Idealize.ShloMosaic.Lib.Pipeline.Value
import Idealize.ShloMosaic.Lib.StableHlo.Run
import Idealize.ShloMosaic.Lib.Tactic

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.Spline

variable (m : (ℓ : Loc nD τ sig) → Buf (Elt Ideal) ℓ) (ρ : Dev nD → PrngReg)

/-- The laid-out abscissae as the region finds them: the first argument with its last two axes swapped, as [524288, 64]. -/
theorem laid_out (c : Dev nD) :
    (V m c main_v1 : S524288x64.Idx → Elt Ideal .f32)
      = shapeCast S524288x64 (transpose S8x64x65536 [0, 2, 1] (m ((c : Thread nD τ).loc main_arg0)) transposes_S8x65536x64_S8x64x65536_0_2_1)
          shapeCasts_S8x64x65536_S524288x64 := by
  show StableHlo.after hostOps0 (fun b => m (c, b)) (Proc.devRef .tc main_v1) = _
  after_results
  rfl

/-- Where the windows' blocks lie, decided over the 128 grid points: the first and third windows move together down
    the rows, block t at point t, column block 0; the second window stays at the origin. -/
theorem block_indices : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 3) = 0 ∧ win0_1.index t (1 : Fin 3) = 0 ∧ win0_1.index t (2 : Fin 3) = 0 :=
  (by decide +kernel : ∀ t : Fin grid0.N, _)

/-- WHAT POINT t WRITES BACK is block t of the spline of the laid-out abscissae over the coefficient array. -/
theorem flushed_eq (c : Dev nD) (t : Fin cfg0.N) :
    (dats m 0 c).flushed 2 t
      = ((cfg0.win 2).blk t).view.read (Elt Ideal) (onArray (n := 524288) (V m c main_v1) (V m c main_arg1)) := by
  show (cfg0.win 2).cut (grid0.coords t) ((dats m 0 c).after 2 t) = _
  rw [after0_2, Point.out_eq]
  obtain ⟨e00, e01, e20, e21, e10, e11, e12⟩ := block_indices t
  funext j
  have hj0 : (j 0).val < 4096 := (j 0).isLt
  have hj1 : (j 1).val < 64 := (j 1).isLt
  -- the abscissa the body loaded at j is the laid-out array where the result's block puts j
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 64 + 1 * (j 1).val = win0_2.index t (1 : Fin 2) * 64 + 1 * (j 1).val; omega
  -- the coefficient block is the whole coefficient array
  have h1 : ∀ y : S64x5x4.Idx, ((cfg0.win 1).blk t).view.emb y = y := by
    intro y
    have hy0 : (y 0).val < 64 := (y 0).isLt
    have hy1 : (y 1).val < 5 := (y 1).isLt
    have hy2 : (y 2).val < 4 := (y 2).isLt
    funext a; apply Fin.ext
    match a with
    | ⟨0, _⟩ => show win0_1.index t (0 : Fin 3) * 64 + 1 * (y 0).val = (y 0).val; omega
    | ⟨1, _⟩ => show win0_1.index t (1 : Fin 3) * 5 + 1 * (y 1).val = (y 1).val; omega
    | ⟨2, _⟩ => show win0_1.index t (2 : Fin 3) * 4 + 1 * (y 2).val = (y 2).val; omega
  -- the column of j inside the block is its column in the array
  have h2 : (((cfg0.win 2).blk t).view.emb j) 1 = j 1 := by
    apply Fin.ext
    show win0_2.index t (1 : Fin 2) * 64 + 1 * (j 1).val = (j 1).val; omega
  show bySelect (V m c main_v1 (((cfg0.win 0).blk t).view.emb j))
      (fun k j' => V m c main_arg1 (((cfg0.win 1).blk t).view.emb (ix3 (j 1) k j')))
    = atRow (V m c main_v1 (((cfg0.win 2).blk t).view.emb j))
      (fun k j' => V m c main_arg1 (ix3 ((((cfg0.win 2).blk t).view.emb j) 1) k j'))
  rw [bySelect_eq_atRow, h0, h2]
  simp only [h1]

/-- Block t of the result covers rows 4096·t … 4096·t + 4095 and every column. -/
theorem mem_block (t : Fin cfg0.N) (i : S524288x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v2).slice (win0_2.rect t)).set ↔ _
  rw [View.set_slice_whole, Rect.mem_set_unit]
  exact Iff.rfl

/-- THE RESULT ARRAY after the region: the spline of the laid-out abscissae. -/
theorem region_result (c : Dev nD) :
    (dats m 0 c).arrAt 2 cfg0.N = onArray (n := 524288) (V m c main_v1) (V m c main_arg1) :=
  (dats m 0 c).arrAt_eq_of_cover 2 _ (fun t _ => flushed_eq m c t) (fun i => by
    have hi0 : (i 0).val < 524288 := (i 0).isLt
    have hi1 : (i 1).val < 64 := (i 1).isLt
    have hN : cfg0.N = 128 := N_0
    let t : Fin cfg0.N := ⟨(i 0).val / 4096, by rw [hN]; omega⟩
    obtain ⟨-, -, e20, e21, -, -, -⟩ := block_indices t
    refine ⟨t, flush0_2 t, ?_⟩
    rw [mem_block]
    intro a
    match a with
    | ⟨0, _⟩ =>
      show win0_2.index t (0 : Fin 2) * 4096 ≤ (i 0).val ∧ (i 0).val < win0_2.index t (0 : Fin 2) * 4096 + 4096
      rw [e20]; show (i 0).val / 4096 * 4096 ≤ (i 0).val ∧ (i 0).val < (i 0).val / 4096 * 4096 + 4096; omega
    | ⟨1, _⟩ =>
      show win0_2.index t (1 : Fin 2) * 64 ≤ (i 1).val ∧ (i 1).val < win0_2.index t (1 : Fin 2) * 64 + 64
      rw [e21]; omega)

/-- THE PROGRAM'S RESULT after the host operations that follow the region: the whole function of the arguments. -/
theorem tail_result (c : Dev nD) :
    Pipeline.afterTail₀ cfgs (dats m) 0 (V0 m) [hostOps1] c main_v4
      = whole transposes_S8x65536x64_S8x64x65536_0_2_1 shapeCasts_S8x64x65536_S524288x64 shapeCasts_S524288x64_S8x65536x64
          (m ((c : Thread nD τ).loc main_arg0)) (m ((c : Thread nD τ).loc main_arg1)) := by
  unfold Pipeline.afterTail₀
  show StableHlo.after hostOps1 _ (Proc.devRef .tc main_v4) = _
  after_results
  have e : Pipeline.withArrays spec0 c (V0 m c) (fun w => (dats m 0 c).arrAt w cfg0.N) (Proc.devRef .tc main_v2)
      = onArray (n := 524288) (V m c main_v1) (V m c main_arg1) :=
    (Pipeline.withArrays_arr spec0 launch0.win.arr_inj c _ _ 2).trans (region_result m c)
  rw [e, laid_out, V_main_arg1]
  rfl

/-- THE RUN, READ: every weakly fair execution ends with the result at the whole function of the arguments and the
    arguments as launched. -/
theorem run : θ_run defs (onTc (τ := τ) (main (F := Ideal))) ⟨m, fun _ => 0, ρ⟩ fun r => ∀ c : Dev nD,
      r.2.mem ((c.tc : Thread nD τ).loc main_v4)
        = whole transposes_S8x65536x64_S8x64x65536_0_2_1 shapeCasts_S8x64x65536_S524288x64 shapeCasts_S524288x64_S8x65536x64
            (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.lean ====
/-
  A Kolmogorov–Arnold layer's per-channel cubic spline over a uniform grid of five cells on [0, 1].

  Both programs swap the last two axes of the [8, 65536, 64] abscissae, lay them out as [524288, 64], and at every
  element clip x to [0, 1], take the cell word floor(5 · x) clamped to 0 … 4, the local coordinate t = x − cell / 5,
  and evaluate ((c₃ t + c₂) t + c₁) t + c₀ with the coefficients of column q and row cell of the [64, 5, 4] table; the
  result is laid back as [8, 65536, 64] and its last two axes swapped.

  The kernel evaluates the five cubics of a column and keeps the one whose row is the cell word by a chain of selects;
  the reference gathers the one row. The cell word is one of 0 … 4 whatever the abscissa is (an infinity included: the
  clamp acts on the converted word), so the chain keeps exactly the gathered row. Up to that choice the two programs
  apply the same operations in the same order, so the results are equal term by term and no law of the extended reals,
  hence nothing of the inputs' finiteness, is used.

  The three frames are the generated ones (the reference's is its run with the result dropped); the idealization
  rewrote nothing, so the preserves claim is trivial.
-/
import proofs.«173336_j11089605558325_1_alg».proof.Defs
import proofs.«173336_j11089605558325_1_alg».proof.Proof.Gen.Kernel
import proofs.«173336_j11089605558325_1_alg».proof.Proof.Gen.Kernel.Skeleton
import proofs.«173336_j11089605558325_1_alg».proof.Proof.Gen.Kernel.Launch
import proofs.«173336_j11089605558325_1_alg».proof.Proof.Gen.Kernel.Points
import proofs.«173336_j11089605558325_1_alg».proof.Proof.Gen.Kernel.Frame
import proofs.«173336_j11089605558325_1_alg».proof.Proof.Gen.KernelIdeal
import proofs.«173336_j11089605558325_1_alg».proof.Proof.Gen.KernelIdeal.Skeleton
import proofs.«173336_j11089605558325_1_alg».proof.Proof.Gen.KernelIdeal.Launch
import proofs.«173336_j11089605558325_1_alg».proof.Proof.Gen.KernelIdeal.Points
import proofs.«173336_j11089605558325_1_alg».proof.Proof.Gen.KernelIdeal.Frame
import proofs.«173336_j11089605558325_1_alg».proof.Proof.Gen.ReferenceIdeal
import proofs.«173336_j11089605558325_1_alg».proof.Proof.Gen.Pre_finite_inputs
import proofs.«173336_j11089605558325_1_alg».proof.Proof.Gen.ReferenceIdeal.Run
import proofs.«173336_j11089605558325_1_alg».proof.Proof.Gen.ReferenceIdeal.Read
import proofs.«173336_j11089605558325_1_alg».proof.Proof.RefValue
import proofs.«173336_j11089605558325_1_alg».proof.Proof.KernelValue
import Idealize.ShloMosaic.Adequacy
import Idealize.ShloMosaic.Init

noncomputable section

namespace Cert.Proof

open Idealize.ShloMosaic Idealize.SL.Sem

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the whole spline function of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
